-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x42 : Shape := ⟨3, ![256, 128, 42]⟩
abbrev S_ : Shape := ⟨0, ![]⟩

class Facts : Prop where
  bcast_S_S256x128x42 : S_.BroadcastsInDim S256x128x42 (![] : Fin 0 → Fin S256x128x42.rank)
  reducesTo_S256x128x42_S_d0_1_2 : S256x128x42.ReducesTo [0, 1, 2] S_
  h_S_ : 0 < S_.numel

variable [Facts]

def fn {F : FTy → Type} [FloatOps F] (main_arg0 : FVec F S256x128x42 .f32) (main_arg1 : FVec F S256x128x42 .f32) : IVec S_ 1 :=
  let main_v0 : FVec F S256x128x42 .f32 := Host.absf main_arg0
  let main_cst : FVec F S_ .f32 := constant S_ .f32 0x7F800000#32
  let main_v1 : FVec F S256x128x42 .f32 := broadcastInDim S256x128x42 ![] bcast_S_S256x128x42 main_cst
  let main_v2 : IVec S256x128x42 1 := cmpf .olt main_v0 main_v1
  let main_c : IVec S_ 1 := constantI S_ 1 1#1
  let main_v3 : IVec S_ 1 := (fun x v => Host.reduce IntOp.andi x v reducesTo_S256x128x42_S_d0_1_2 h_S_) main_v2 main_c
  let main_v4 : FVec F S256x128x42 .f32 := Host.absf main_arg1
  let main_cst_0 : FVec F S_ .f32 := constant S_ .f32 0x7F800000#32
  let main_v5 : FVec F S256x128x42 .f32 := broadcastInDim S256x128x42 ![] bcast_S_S256x128x42 main_cst_0
  let main_v6 : IVec S256x128x42 1 := cmpf .olt main_v4 main_v5
  let main_c_1 : IVec S_ 1 := constantI S_ 1 1#1
  let main_v7 : IVec S_ 1 := (fun x v => Host.reduce IntOp.andi x v reducesTo_S256x128x42_S_d0_1_2 h_S_) main_v6 main_c_1
  let main_v8 : IVec S_ 1 := andi main_v3 main_v7
  main_v8
-- ==== Kernel.lean ====
abbrev S256x128x42 : Shape := ⟨3, ![256, 128, 42]⟩
abbrev S256x1 : Shape := ⟨2, ![256, 1]⟩
abbrev S32x128x42 : Shape := ⟨3, ![32, 128, 42]⟩
abbrev S32x1 : Shape := ⟨2, ![32, 1]⟩
abbrev S32x128x1 : Shape := ⟨3, ![32, 128, 1]⟩
abbrev S32x128 : Shape := ⟨2, ![32, 128]⟩
abbrev S32 : Shape := ⟨1, ![32]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S256x128x42, .f32⟩
  | .hbm, ⟨1, _⟩ => ⟨S256x128x42, .f32⟩
  | .hbm, ⟨2, _⟩ => ⟨S256x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S32x128x42, .f32⟩
  | .local _ .vmem, ⟨1, _⟩ => ⟨S32x128x42, .f32⟩
  | .local _ .vmem, ⟨2, _⟩ => ⟨S32x128x42, .f32⟩
  | .local _ .vmem, ⟨3, _⟩ => ⟨S32x128x42, .f32⟩
  | .local _ .vmem, ⟨4, _⟩ => ⟨S32x1, .f32⟩
  | .local _ .vmem, ⟨5, _⟩ => ⟨S32x1, .f32⟩
  | _, _ => ⟨S256x128x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x42 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x128x42_S32x128x42_0_0_0 : ∀ a, (![0, 0, 0] : Fin 3 → Nat) a + S32x128x42.size a ≤ S32x128x42.size a
  h_S32x128x42 : 0 < S32x128x42.numel
  slices_S32x128x42_o0_0_40_S32x128x1 : S32x128x42.Slices ![0, 0, 40] S32x128x1
  shapeCasts_S32x128x1_S32x128 : S32x128x1.ShapeCasts S32x128
  reduces_S32x128_S32 : S32x128.Reduces [1] S32
  reduces_S32x128x42_S32x128 : S32x128x42.Reduces [2] S32x128
  shapeCasts_S32_S32x1 : S32.ShapeCasts S32x1
  inb_S32x1_S32x1_0_0 : ∀ a, (![0, 0] : Fin 2 → Nat) a + S32x1.size a ≤ S32x1.size a
  h_S32x1 : 0 < S32x1.numel
  reducesTo_S256x1_S_d0_1 : S256x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x42.size a ≤ S256x128x42.size a
  hwx0_0 : ∀ i : grid0.Coords, EltTy.bits .f32 = 32 ∨ (Rect.block (s := S256x128x42) S32x128x42.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x42.size a ≤ S256x128x42.size a
  hwx0_1 : ∀ i : grid0.Coords, EltTy.bits .f32 = 32 ∨ (Rect.block (s := S256x128x42) S32x128x42.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S256x1.size a
  hwx0_2 : ∀ i : grid0.Coords, EltTy.bits .f32 = 32 ∨ (Rect.block (s := S256x1) S32x1.size (cc0_transform_2 i) (hinb0_2 i)).WholeWords (EltTy.packing .f32)

variable [Facts₀]

abbrev win0_0 : Pipeline.Window sig grid0 :=
  Pipeline.Window.ofSpec (Memref.whole main_arg0) S32x128x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x42.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x128x42 : Shape := ⟨3, ![256, 128, 42]⟩
abbrev S256x128x1 : Shape := ⟨3, ![256, 128, 1]⟩
abbrev S256x128 : Shape := ⟨2, ![256, 128]⟩
abbrev S_ : Shape := ⟨0, ![]⟩
abbrev S256 : Shape := ⟨1, ![256]⟩

abbrev nBuf : Space → Nat
  | .hbm => 25
  | .vmem => 0
  | .smem => 0
  | _ => 0

abbrev bufTy : (tb : Table) → Fin (tcTables nBuf tb) → BufTy
  | .hbm, ⟨0, _⟩ => ⟨S256x128x42, .f32⟩
  | .hbm, ⟨1, _⟩ => ⟨S256x128x42, .f32⟩
  | .hbm, ⟨2, _⟩ => ⟨S256x128x1, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S256x128x42, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S256x128x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  slices_S256x128x42_S256x128x1_0_0_40 : S256x128x42.Slices ![0, 0, 40] S256x128x1
  shapeCasts_S256x128x1_S256x128 : S256x128x1.ShapeCasts S256x128
  bcast_S_S256x128 : S_.BroadcastsInDim S256x128 (![] : Fin 0 → Fin S256x128.rank)
  reducesTo_S256x128_S256_d1 : S256x128.ReducesTo [1] S256
  h_S_ : 0 < S_.numel
  reducesTo_S256x128x42_S256x128_d2 : S256x128x42.ReducesTo [2] S256x128
  bcast_S_S256 : S_.BroadcastsInDim S256 (![] : Fin 0 → Fin S256.rank)
  reducesTo_S256_S_d0 : S256.ReducesTo [0] S_

variable [Facts₀]

class Facts : Prop extends Facts₀ where

variable [Facts]
-- ==== Proof.MaskedLoss.lean ====
/-
  The function both programs compute, stated once, with no program in sight.

  A ROW is one batch entry: a target table `t s a` and a prediction table `p s a` over 128 positions `s` and 42 classes `a`.
  Its weight at position `s` is `1 - t s 40` (one minus the entry of the ignored class), the probability it gives the true
  class is `∑ a, t s a * p s a`, and the row's loss is the weighted sum of the negated logarithms of those probabilities
  divided by `128 - ∑ s, weight s`. The result is the sum of the 256 row losses divided by 256.
  Everything is read on the extended reals, with the extended reals' own conventions at the corners; the constants are kept as
  the words the programs print (1, 128 and 256 in binary32), which are the same words on both sides and are never evaluated.
-/
import Idealize.ShloMosaic.PureOps.Ideal
import Idealize.ShloMosaic.PureOps.Ideal.Laws
import Idealize.ShloMosaic.Lib.ValueIdx

noncomputable section

open scoped BigOperators

namespace Cert.MaskedLoss

open Idealize.ShloMosaic Idealize.ShloMosaic.ValueIdx

/-- The weight of position `s` of a row: one minus the target's entry at the ignored class (index 40). -/
def weight (t : Fin 128 → Fin 42 → EReal) (s : Fin 128) : EReal :=
  Ideal.ofBits .f32 0x3F800000#32 - t s 40

/-- The probability the predictions give the true class at position `s`: the inner product of the two class rows. -/
def hit (t p : Fin 128 → Fin 42 → EReal) (s : Fin 128) : EReal :=
  ∑ a : Fin 42, t s a * p s a

/-- One row's loss: the weighted sum of `-log hit` over the positions, over `128` minus the sum of the weights. -/
def rowLoss (t p : Fin 128 → Fin 42 → EReal) : EReal :=
  Ideal.div (∑ s : Fin 128, -(Ideal.log (hit t p s)) * weight t s)
    (Ideal.ofBits .f32 0x43000000#32 - ∑ s : Fin 128, weight t s)

/-- Row `b` of a [256, 128, 42] array. -/
def rowOf (X : (⟨3, ![256, 128, 42]⟩ : Shape).Idx → EReal) (b : Fin 256) : Fin 128 → Fin 42 → EReal :=
  fun s a => X (ix3 b s a)

/-- The result: the mean of the 256 row losses. -/
def meanLoss (X Y : (⟨3, ![256, 128, 42]⟩ : Shape).Idx → EReal) : EReal :=
  Ideal.div (∑ b : Fin 256, rowLoss (rowOf X b) (rowOf Y b)) (Ideal.ofBits .f32 0x43800000#32)

/-- Subtracting from the zero word is negation, on every extended real (the infinities included: `0 + ⊥ = ⊥`, `0 + ⊤ = ⊤`). -/
theorem zero_word_sub (x : EReal) : Ideal.ofBits .f32 0x00000000#32 - x = -x := by
  rw [Ideal.ofBits_zero_f32, zero_sub]

/-- Adding to the zero word changes nothing. -/
theorem zero_word_add (x : EReal) : Ideal.ofBits .f32 0x00000000#32 + x = x := by
  rw [Ideal.ofBits_zero_f32, zero_add]

/-- A sum over the indices of a one-axis shape is the sum over the axis. -/
theorem sum_idx1 {M : Type*} [AddCommMonoid M] {n : Nat} (f : (⟨1, ![n]⟩ : Shape).Idx → M) :
    ∑ i, f i = ∑ b : Fin n, f (ix1 b) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- A sum over the indices of a column shape [n, 1] is the sum over its rows. -/
theorem sum_idx_col {M : Type*} [AddCommMonoid M] {n : Nat} (f : (⟨2, ![n, 1]⟩ : Shape).Idx → M) :
    ∑ i, f i = ∑ b : Fin n, f (ix2 b 0) := by
  rw [sum_idx2]
  refine Finset.sum_congr rfl fun b _ => ?_
  rw [Fin.sum_univ_one]

end Cert.MaskedLoss

end
-- ==== Proof.ReferenceLoss.lean ====
/-
  The reference computes the mean row loss.

  Its stages are read one at a time at an index: the slice of the ignored class and the reshape land on entry `(b, s, 40)` of the
  target; each of its three sums over one axis is the zero word plus the sum over that axis, and its last sum, over every row,
  the zero word plus the sum over the rows; its negation and its logarithm are the extended reals' own. So the weight, the
  true-class probability, the row loss and the mean are, term by term, the ones of the specification.
-/
import proofs.«167138_j64527588655435_1_alg».proof.Proof.Gen.ReferenceIdeal.Read
import proofs.«167138_j64527588655435_1_alg».proof.Proof.MaskedLoss

noncomputable section

open scoped BigOperators

namespace Cert.ReferenceIdeal.RefLoss

open Cert.ReferenceIdeal Cert.ReferenceIdeal.Gen Cert.ReferenceIdeal.Read Idealize.ShloMosaic Idealize.ShloMosaic.ValueIdx Cert.MaskedLoss

variable (X Y : (⟨S256x128x42, .f32⟩ : BufTy).Contents (Elt Ideal))

/-- The slice of class 40 followed by the reshape to [256, 128] reads entry `(b, s, 40)`. -/
theorem idx_ignored (b : Fin 256) (s : Fin 128) : idx_main_v0 (idx_main_v1 (ix2 b s)) = ix3 b s (40 : Fin 42) :=
  funext fun a => Fin.ext (by
    have hb := b.isLt; have hs := s.isLt
    match a with
    | ⟨0, _⟩ => show (b.val * 128 + s.val) / 128 = b.val; omega
    | ⟨1, _⟩ => show (b.val * 128 + s.val) / 1 % 128 = s.val; omega
    | ⟨2, _⟩ => rfl)

theorem idx_class (b : Fin 256) (s : Fin 128) (k : Fin 42) : idx_main_v6 (ix2 b s) k = ix3 b s k :=
  funext fun a => Fin.ext (by match a with | ⟨0, _⟩ => rfl | ⟨1, _⟩ => rfl | ⟨2, _⟩ => rfl)

theorem idx_pos4 (b : Fin 256) (k : Fin 128) : idx_main_v4 (ix1 b) k = ix2 b k :=
  funext fun a => Fin.ext (by match a with | ⟨0, _⟩ => rfl | ⟨1, _⟩ => rfl)

theorem idx_pos10 (b : Fin 256) (k : Fin 128) : idx_main_v10 (ix1 b) k = ix2 b k :=
  funext fun a => Fin.ext (by match a with | ⟨0, _⟩ => rfl | ⟨1, _⟩ => rfl)

/-- The reference's mask is the row's weight. -/
theorem mask_eq (b : Fin 256) (s : Fin 128) : val_main_v3 (F := Ideal) X (ix2 b s) = weight (rowOf X b) s := by
  rw [val_main_v3_apply, val_main_v2_apply, val_main_cst_apply, val_main_v1_apply, val_main_v0_apply, idx_ignored]
  rfl

/-- Its sum over the classes is the probability of the true class. -/
theorem prob_eq (b : Fin 256) (s : Fin 128) : val_main_v6 (F := Ideal) X Y (ix2 b s) = hit (rowOf X b) (rowOf Y b) s := by
  rw [val_main_v6_apply, val_main_cst_1_apply]
  simp only [val_main_v5_apply, idx_class, Ideal.mulf_def, Ideal.ofBits_def]
  rw [zero_word_add]
  rfl

/-- Its quotient at row `b` is the row's loss. -/
theorem row_eq (b : Fin 256) : val_main_v13 (F := Ideal) X Y (ix1 b) = rowLoss (rowOf X b) (rowOf Y b) := by
  rw [val_main_v13_apply, val_main_v10_apply, val_main_v12_apply, val_main_v11_apply, val_main_cst_3_apply, val_main_v4_apply,
    val_main_cst_2_apply, val_main_cst_0_apply]
  simp only [idx_pos4, idx_pos10, val_main_v9_apply, val_main_v8_apply, val_main_v7_apply, mask_eq, prob_eq,
    Ideal.hostDivf_def, Ideal.subf_def, Ideal.mulf_def, Ideal.hostNegf_def, Ideal.negf_def, Ideal.hostUnary_log_def, Ideal.ofBits_def,
    zero_word_add]
  rfl

/-- The reference's result is the mean row loss. -/
theorem result_eq (i : S_.Idx) : val_main_v15 (F := Ideal) X Y i = meanLoss X Y := by
  rw [val_main_v15_apply, val_main_v14_apply, val_main_cst_5_apply, val_main_cst_4_apply, sum_idx1]
  simp only [row_eq, Ideal.hostDivf_def, Ideal.ofBits_def, zero_word_add]
  rfl

end Cert.ReferenceIdeal.RefLoss

end
-- ==== Proof.BlockLoss.lean ====
/-
  What the kernel body computes on one block: row `r` of its result is the row loss of row `r` of the two blocks.

  The body keeps the ignored class's column of the target block (a slice of the last axis at 40, reshaped to [32, 128]), takes one
  minus it for the weights, sums the products of the two blocks over the classes, takes the logarithm, negates it by subtracting from
  zero, multiplies by the weights, sums over the positions, and divides by 128 minus the sum of the weights. Each lane sum is the plain
  sum over its axis on the extended reals, and `0 - x = -x` there, so read at row `r` this is the specification's row loss of the
  rows `(s, a) ↦ block (r, s, a)`.
-/
import proofs.«167138_j64527588655435_1_alg».proof.Proof.Gen.KernelIdeal.Skeleton
import proofs.«167138_j64527588655435_1_alg».proof.Proof.MaskedLoss
import Idealize.ShloMosaic.Lib.Pipeline.Value
import Idealize.ShloMosaic.PureOps.Ideal.Laws

noncomputable section

open scoped BigOperators

namespace Cert.KernelIdeal.BlockLoss

open Cert.KernelIdeal Cert.KernelIdeal.Gen Idealize.ShloMosaic Idealize.ShloMosaic.ValueIdx Cert.MaskedLoss

/-- The slice of class 40 of a block, reshaped to [32, 128], reads entry `(r, s, 40)`. -/
theorem ignored_at (x0 : FVec Ideal S32x128x42 .f32) (h1 : S32x128x42.Slices ![0, 0, 40] S32x128x1) (h2 : S32x128x1.ShapeCasts S32x128)
    (r : Fin 32) (s : Fin 128) :
    shapeCast S32x128 (extractStridedSlice S32x128x1 ![0, 0, 40] x0 h1) h2 (ix2 r s) = x0 (ix3 r s (40 : Fin 42)) := by
  refine (shapeCast_apply _ h2 (ix2 r s) (ix3 r s (0 : Fin 1)) ?_).trans ?_
  · rw [Shape.rowMajor_val_three, Shape.rowMajor_val_two]
    show (r.val * 128 + s.val) * 1 + 0 = r.val * 128 + s.val
    omega
  · exact extractStridedSlice_apply ![0, 0, 40] x0 h1 (ix3 r s 0) (ix3 r s 40) (fun a => match a with
      | ⟨0, _⟩ => by show r.val = 0 + r.val; omega
      | ⟨1, _⟩ => by show s.val = 0 + s.val; omega
      | ⟨2, _⟩ => by show 40 = 40 + 0; rfl)

/-- A lane sum over the positions of a [32, 128] value, at row `r`. -/
theorem sum_positions (v : FVec Ideal S32x128 .f32) (h : S32x128.Reduces [1] S32) (hφ : FKind.Formats .f32)
    (hacc : (0x00000000#32 : BitVec 32) = FKind.add.neutral .f32 hφ) (r : Fin 32) :
    multiReduction .add [1] S32 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v ?_
  exact funext fun a => Fin.ext (by match a with | ⟨0, _⟩ => rfl | ⟨1, _⟩ => rfl)

/-- A lane sum over the classes of a [32, 128, 42] value, at `(r, s)`. -/
theorem sum_classes (v : FVec Ideal S32x128x42 .f32) (h : S32x128x42.Reduces [2] S32x128) (hφ : FKind.Formats .f32)
    (hacc : (0x00000000#32 : BitVec 32) = FKind.add.neutral .f32 hφ) (r : Fin 32) (s : Fin 128) :
    multiReduction .add [2] S32x128 v 0x00000000#32 h hφ hacc (ix2 r s) = ∑ k : Fin 42, v (ix3 r s k) := by
  refine (Ideal.multiReduction_add_single v 0x00000000#32 h hφ hacc (ix2 r s)).trans ?_
  refine Finset.sum_congr rfl fun k _ => congrArg v ?_
  exact funext fun a => Fin.ext (by match a with | ⟨0, _⟩ => rfl | ⟨1, _⟩ => rfl | ⟨2, _⟩ => rfl)

section Row

variable (x0 x1 : FVec Ideal S32x128x42 .f32) (r : Fin 32) (T P : Fin 128 → Fin 42 → EReal)

/-- The body's weights at `(r, s)`. -/
theorem weight_at (h0 : ∀ s a, x0 (ix3 r s a) = T s a)
    (hs : S32x128x42.Slices ![0, 0, 40] S32x128x1) (hc : S32x128x1.ShapeCasts S32x128) (s : Fin 128) :
    subf (broadcast S32x128 (FloatOps.ofBits (F := Ideal) .f32 0x3F800000#32))
      (shapeCast S32x128 (extractStridedSlice S32x128x1 ![0, 0, 40] x0 hs) hc) (ix2 r s) = weight T s := by
  show Ideal.ofBits .f32 0x3F800000#32 - shapeCast S32x128 (extractStridedSlice S32x128x1 ![0, 0, 40] x0 hs) hc (ix2 r s) = _
  rw [ignored_at, h0]
  rfl

/-- The body's sum over the classes at `(r, s)`. -/
theorem hit_at (h0 : ∀ s a, x0 (ix3 r s a) = T s a) (h1 : ∀ s a, x1 (ix3 r s a) = P s a)
    (h : S32x128x42.Reduces [2] S32x128) (hφ : FKind.Formats .f32)
    (hacc : (0x00000000#32 : BitVec 32) = FKind.add.neutral .f32 hφ) (s : Fin 128) :
    multiReduction .add [2] S32x128 (mulf x0 x1) 0x00000000#32 h hφ hacc (ix2 r s) = hit T P s := by
  refine (sum_classes _ h hφ hacc r s).trans (Finset.sum_congr rfl fun a _ => ?_)
  show x0 (ix3 r s a) * x1 (ix3 r s a) = T s a * P s a
  rw [h0, h1]

/-- The body's weighted negated logarithm at `(r, s)`: zero minus the logarithm is its negation. -/
theorem term_at (h0 : ∀ s a, x0 (ix3 r s a) = T s a) (h1 : ∀ s a, x1 (ix3 r s a) = P s a)
    (hs : S32x128x42.Slices ![0, 0, 40] S32x128x1) (hc : S32x128x1.ShapeCasts S32x128)
    (h : S32x128x42.Reduces [2] S32x128) (hφ : FKind.Formats .f32)
    (hacc : (0x00000000#32 : BitVec 32) = FKind.add.neutral .f32 hφ) (s : Fin 128) :
    mulf (subf (broadcast S32x128 (FloatOps.ofBits (F := Ideal) .f32 0x00000000#32))
        (log (multiReduction .add [2] S32x128 (mulf x0 x1) 0x00000000#32 h hφ hacc)))
      (subf (broadcast S32x128 (FloatOps.ofBits (F := Ideal) .f32 0x3F800000#32))
        (shapeCast S32x128 (extractStridedSlice S32x128x1 ![0, 0, 40] x0 hs) hc)) (ix2 r s)
      = -(Ideal.log (hit T P s)) * weight T s := by
  show (Ideal.ofBits .f32 0x00000000#32 - Ideal.log (multiReduction .add [2] S32x128 (mulf x0 x1) 0x00000000#32 h hφ hacc (ix2 r s)))
      * (subf (broadcast S32x128 (FloatOps.ofBits (F := Ideal) .f32 0x3F800000#32))
        (shapeCast S32x128 (extractStridedSlice S32x128x1 ![0, 0, 40] x0 hs) hc) (ix2 r s)) = _
  rw [hit_at x0 x1 r T P h0 h1, weight_at x0 r T h0, zero_word_sub]

/-- THE BLOCK'S ROW: what the body stores at `(r, q)` of its [32, 1] result is the row loss of row `r` of its two blocks. -/
theorem pay_at (h0 : ∀ s a, x0 (ix3 r s a) = T s a) (h1 : ∀ s a, x1 (ix3 r s a) = P s a) (q : Fin 1) :
    k0_pay1 (F := Ideal) x0 x1 (ix2 r q) = rowLoss T P := by
  unfold k0_pay1
  dsimp only
  refine (shapeCast_apply _ shapeCasts_S32_S32x1 (ix2 r q) (ix1 r) ?_).trans ?_
  · rw [Shape.rowMajor_val_one, Shape.rowMajor_val_two]
    show r.val = r.val * 1 + q.val
    have := q.isLt
    omega
  show Ideal.div
      (multiReduction (F := Ideal) FKind.add [1] S32 _ (0x00000000#32) reduces_S32x128_S32 _ _ (ix1 r))
      (Ideal.ofBits .f32 0x43000000#32 - multiReduction (F := Ideal) FKind.add [1] S32 _ (0x00000000#32) reduces_S32x128_S32 _ _ (ix1 r)) = _
  unfold rowLoss
  refine congrArg₂ Ideal.div ?_ (congrArg (fun z => Ideal.ofBits .f32 0x43000000#32 - z) ?_)
  · refine (sum_positions _ _ _ _ r).trans (Finset.sum_congr rfl fun s _ => ?_)
    exact term_at x0 x1 r T P h0 h1 _ _ _ _ _ s
  · refine (sum_positions _ _ _ _ r).trans (Finset.sum_congr rfl fun s _ => ?_)
    exact weight_at x0 r T h0 _ _ s

end Row

end Cert.KernelIdeal.BlockLoss

end
-- ==== Proof.KernelLoss.lean ====
/-
  The kernel computes the mean row loss.

  The grid has 8 points; point `t` reads rows `32 t … 32 t + 31` of both arguments, whole in the other two axes, and writes rows
  `32 t … 32 t + 31` of a [256, 1] column. By the block's row lemma, what point `t` writes back is its block of ONE column, the
  column of the 256 row losses of the arguments; the 8 blocks cover the column (row `b` lies in block `b / 32`), so after the
  region the column holds every row loss. The two host operations after the region sum the column (the zero word plus the sum over
  its 256 indices) and divide by 256: the mean row loss.
-/
import proofs.«167138_j64527588655435_1_alg».proof.Proof.Gen.KernelIdeal.Frame
import proofs.«167138_j64527588655435_1_alg».proof.Proof.BlockLoss
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KernelLoss

open Cert.KernelIdeal Cert.KernelIdeal.Gen Idealize.ShloMosaic Idealize.ShloMosaic.TcCoe Idealize.SL.Sem Idealize.ShloMosaic.ValueIdx Cert.MaskedLoss
open Idealize.ShloMosaic.StableHlo
open Idealize.ShloMosaic.Pipeline (Dat Cfg Window)

variable (m : (ℓ : Loc nD τ sig) → Buf (Elt Ideal) ℓ) (ρ : Dev nD → PrngReg)

/-- The column of the 256 row losses of two [256, 128, 42] arrays. -/
def lossCol (X Y : S256x128x42.Idx → EReal) : S256x1.Idx → EReal := fun i => rowLoss (rowOf X (i 0)) (rowOf Y (i 0))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 8 points: both inputs' row-block index is the output's, their other block indices are 0,
    and the output's column-block index is 0. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 7 :=
  (by decide +kernel : ∀ t : Fin grid0.N, _)

/-- Every one of the 8 row blocks of the column is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- WHAT POINT `t` WRITES BACK is its block of the column of row losses of the arguments as the region finds them: row `r` of
    the two input blocks is row `32 t + r` of the arguments, which is the row the output block's row `r` sits at. -/
theorem flushed_eq (c : Dev nD) (t : Fin cfg0.N) :
    (dats m 0 c).flushed 2 t = ((cfg0.win 2).blk t).view.read (Elt Ideal) (lossCol (V m c main_arg0) (V m c main_arg1)) := by
  show (cfg0.win 2).cut (grid0.coords t) ((dats m 0 c).after 2 t) = _
  rw [after0_2]
  unfold out0_2
  rw [View.canon_unit_zero hz2]
  simp only [View.ld_unit_zero (S := S32x128x42) hz3]
  obtain ⟨e0, e1, e2, e3, e4, e5, e6, e7⟩ := idx_facts t
  funext j
  obtain ⟨r, q, rfl⟩ : ∃ (r : Fin 32) (q : Fin 1), j = ix2 r q := ⟨j 0, j 1, eq_ix2 j⟩
  show k0_pay1 (F := Ideal) (iblk m c 0 t) (iblk m c 1 t) (ix2 r q)
    = lossCol (V m c main_arg0) (V m c main_arg1) (((cfg0.win 2).blk t).view.emb (ix2 r q))
  refine BlockLoss.pay_at (iblk m c 0 t) (iblk m c 1 t) r _ _ (fun s a => ?_) (fun s a => ?_) q
  · show V m c main_arg0 (((cfg0.win 0).blk t).view.emb (ix3 r s a))
      = V m c main_arg0 (ix3 ((((cfg0.win 2).blk t).view.emb (ix2 r q)) 0) s a)
    refine congrArg (V m c main_arg0) (funext fun ax => Fin.ext ?_)
    match ax with
    | ⟨0, _⟩ => show win0_0.index t (0 : Fin 3) * 32 + 1 * r.val = win0_2.index t (0 : Fin 2) * 32 + 1 * r.val; omega
    | ⟨1, _⟩ => show win0_0.index t (1 : Fin 3) * 128 + 1 * s.val = s.val; omega
    | ⟨2, _⟩ => show win0_0.index t (2 : Fin 3) * 42 + 1 * a.val = a.val; omega
  · show V m c main_arg1 (((cfg0.win 1).blk t).view.emb (ix3 r s a))
      = V m c main_arg1 (ix3 ((((cfg0.win 2).blk t).view.emb (ix2 r q)) 0) s a)
    refine congrArg (V m c main_arg1) (funext fun ax => Fin.ext ?_)
    match ax with
    | ⟨0, _⟩ => show win0_1.index t (0 : Fin 3) * 32 + 1 * r.val = win0_2.index t (0 : Fin 2) * 32 + 1 * r.val; omega
    | ⟨1, _⟩ => show win0_1.index t (1 : Fin 3) * 128 + 1 * s.val = s.val; omega
    | ⟨2, _⟩ => show win0_1.index t (2 : Fin 3) * 42 + 1 * a.val = a.val; omega

/-- An index of the column is in point `t`'s block iff each coordinate is in the block's range on its axis. -/
theorem mem_blk (t : Fin cfg0.N) (i : S256x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v0).slice (win0_2.rect t)).set ↔ _
  rw [View.set_slice_whole, Rect.mem_set_unit]
  exact Iff.rfl

/-- The 8 blocks cover the column: row `b` is in the block of the point whose row-block index is `b / 32`. -/
theorem cover (i : S256x1.Idx) : ∃ t : Fin cfg0.N, (cfg0.win 2).flush t = true ∧ i ∈ ((cfg0.win 2).blk t).view.set := by
  have hi0 : (i 0).val < 256 := (i 0).isLt
  have hi1 : (i 1).val < 1 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- THE COLUMN after the region: every row loss of the arguments. -/
theorem final (c : Dev nD) : (dats m 0 c).arrAt 2 cfg0.N = lossCol (V m c main_arg0) (V m c main_arg1) :=
  (dats m 0 c).arrAt_eq_of_cover 2 _ (fun t _ => flushed_eq m c t) cover

/-- The sum of the column over all its indices, from the zero word, divided by 256, is the mean row loss. -/
theorem mean_of_col (X Y : S256x128x42.Idx → EReal) (i : S_.Idx) :
    Host.divf (F := Ideal) (Host.reduceAdd (F := Ideal) (lossCol X Y) (constant (F := Ideal) S_ .f32 0x00000000#32) reducesTo_S256x1_S_d0_1 h_S_)
      (constant (F := Ideal) S_ .f32 0x43800000#32) i = meanLoss X Y := by
  show Ideal.div (Host.reduceAdd (F := Ideal) (lossCol X Y) (constant (F := Ideal) S_ .f32 0x00000000#32) reducesTo_S256x1_S_d0_1 h_S_ i)
      (Ideal.ofBits .f32 0x43800000#32) = _
  unfold meanLoss
  refine congrArg (fun z => Ideal.div z (Ideal.ofBits .f32 0x43800000#32)) ?_
  simp only [Host.reduceAdd, Ideal.hostReduceAdd_def]
  rw [Ideal.hostReduceAdd_total reducesTo_S256x1_S_d0_1 (fun b => b.elim0), sum_idx_col]
  show Ideal.ofBits .f32 0x00000000#32 + _ = _
  rw [zero_word_add]
  exact Finset.sum_congr rfl fun b _ => rfl

/-- The result buffer after the host operations that follow the region: the mean row loss of the arguments. -/
theorem tail_eq (c : Dev nD) :
    Pipeline.afterTail₀ cfgs (dats m) 0 (V0 m) [hostOps1] c main_v2 = fun _ => meanLoss (V m c main_arg0) (V m c main_arg1) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = lossCol (V m c main_arg0) (V m c main_arg1) :=
    (Pipeline.withArrays_arr spec0 launch0.win.arr_inj c _ _ 2).trans (final m c)
  rw [e]
  funext i
  exact mean_of_col _ _ i

/-- THE RUN, READ: every weakly fair execution of the kernel's program terminates with the result at the mean row loss of
    the arguments, and the arguments unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelLoss

end
-- ==== Proof.lean ====
/-
  A masked cross-entropy, averaged: for targets `T` and predictions `Q` of shape [256, 128, 42], row `b` has weights
  `w s = 1 - T (b, s, 40)`, true-class probabilities `h s = ∑ a, T (b, s, a) * Q (b, s, a)`, and loss
  `(∑ s, -log (h s) * w s) / (128 - ∑ s, w s)`; the result is the sum of the 256 row losses over 256.

  The kernel computes the row losses 32 rows at a time over a grid of 8 points, into a [256, 1] column, and its host operations
  sum the column and divide by 256; the reference computes the same formula on whole arrays. On the extended reals the two differ
  only in how the sums are laid out (lane sums per block against host sums with a zero initial value; a sum over a column against a
  sum over a vector) and in the kernel's writing `-x` as `0 - x`, which is the same extended real for every `x`. No algebraic
  law that needs finiteness is used: both runs are posted at ONE term, `MaskedLoss.meanLoss` of the arguments, and the
  precondition is never opened. The idealization rewrote nothing, so `preserves` is `True`.
-/
import proofs.«167138_j64527588655435_1_alg».proof.Defs
import proofs.«167138_j64527588655435_1_alg».proof.Proof.Gen.Kernel
import proofs.«167138_j64527588655435_1_alg».proof.Proof.Gen.Kernel.Skeleton
import proofs.«167138_j64527588655435_1_alg».proof.Proof.Gen.Kernel.Launch
import proofs.«167138_j64527588655435_1_alg».proof.Proof.Gen.Kernel.Points
import proofs.«167138_j64527588655435_1_alg».proof.Proof.Gen.Kernel.Frame
import proofs.«167138_j64527588655435_1_alg».proof.Proof.Gen.KernelIdeal
import proofs.«167138_j64527588655435_1_alg».proof.Proof.Gen.KernelIdeal.Skeleton
import proofs.«167138_j64527588655435_1_alg».proof.Proof.Gen.KernelIdeal.Launch
import proofs.«167138_j64527588655435_1_alg».proof.Proof.Gen.KernelIdeal.Points
import proofs.«167138_j64527588655435_1_alg».proof.Proof.Gen.KernelIdeal.Frame
import proofs.«167138_j64527588655435_1_alg».proof.Proof.Gen.ReferenceIdeal
import proofs.«167138_j64527588655435_1_alg».proof.Proof.Gen.Pre_finite_inputs
import proofs.«167138_j64527588655435_1_alg».proof.Proof.Gen.ReferenceIdeal.Run
import proofs.«167138_j64527588655435_1_alg».proof.Proof.Gen.ReferenceIdeal.Read
import proofs.«167138_j64527588655435_1_alg».proof.Proof.ReferenceLoss
import proofs.«167138_j64527588655435_1_alg».proof.Proof.KernelLoss
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both programs end with the mean row loss of those arguments. -/
theorem algebraic : Cert.algebraic_KernelIdeal_ReferenceIdeal := by
  intro m ρ m' ρ' _ hagree
  refine ⟨fun c _ => Cert.MaskedLoss.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelLoss.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (funext fun i => Cert.ReferenceIdeal.RefLoss.result_eq _ _ i)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
